-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x13x13 : Shape := ⟨3, ![131072, 13, 13]⟩
abbrev S131072x1 : Shape := ⟨2, ![131072, 1]⟩
abbrev S169x169 : Shape := ⟨2, ![169, 169]⟩
abbrev S169 : Shape := ⟨1, ![169]⟩
abbrev S_ : Shape := ⟨0, ![]⟩

class Facts : Prop where
  bcast_S_S131072x13x13 : S_.BroadcastsInDim S131072x13x13 (![] : Fin 0 → Fin S131072x13x13.rank)
  reducesTo_S131072x13x13_S_d0_1_2 : S131072x13x13.ReducesTo [0, 1, 2] S_
  h_S_ : 0 < S_.numel
  bcast_S_S131072x1 : S_.BroadcastsInDim S131072x1 (![] : Fin 0 → Fin S131072x1.rank)
  reducesTo_S131072x1_S_d0_1 : S131072x1.ReducesTo [0, 1] S_
  bcast_S_S169x169 : S_.BroadcastsInDim S169x169 (![] : Fin 0 → Fin S169x169.rank)
  reducesTo_S169x169_S_d0_1 : S169x169.ReducesTo [0, 1] S_
  bcast_S_S169 : S_.BroadcastsInDim S169 (![] : Fin 0 → Fin S169.rank)
  reducesTo_S169_S_d0 : S169.ReducesTo [0] S_

variable [Facts]

def fn_part1 {F : FTy → Type} [FloatOps F] (main_arg4 : FVec F S169x169 .f32) (main_arg5 : FVec F S169 .f32) (main_v13 : IVec S_ 1) (main_v16 : IVec S131072x1 1) : IVec S_ 1 :=
  let main_c_5 : IVec S_ 1 := constantI S_ 1 1#1
  let main_v17 : IVec S_ 1 := (fun x v => Host.reduce IntOp.andi x v reducesTo_S131072x1_S_d0_1 h_S_) main_v16 main_c_5
  let main_v18 : IVec S_ 1 := andi main_v13 main_v17
  let main_v19 : FVec F S169x169 .f32 := Host.absf main_arg4
  let main_cst_6 : FVec F S_ .f32 := constant S_ .f32 0x7F800000#32
  let main_v20 : FVec F S169x169 .f32 := broadcastInDim S169x169 ![] bcast_S_S169x169 main_cst_6
  let main_v21 : IVec S169x169 1 := cmpf .olt main_v19 main_v20
  let main_c_7 : IVec S_ 1 := constantI S_ 1 1#1
  let main_v22 : IVec S_ 1 := (fun x v => Host.reduce IntOp.andi x v reducesTo_S169x169_S_d0_1 h_S_) main_v21 main_c_7
  let main_v23 : IVec S_ 1 := andi main_v18 main_v22
  let main_v24 : FVec F S169 .f32 := Host.absf main_arg5
  let main_cst_8 : FVec F S_ .f32 := constant S_ .f32 0x7F800000#32
  let main_v25 : FVec F S169 .f32 := broadcastInDim S169 ![] bcast_S_S169 main_cst_8
  let main_v26 : IVec S169 1 := cmpf .olt main_v24 main_v25
  let main_c_9 : IVec S_ 1 := constantI S_ 1 1#1
  let main_v27 : IVec S_ 1 := (fun x v => Host.reduce IntOp.andi x v reducesTo_S169_S_d0 h_S_) main_v26 main_c_9
  let main_v28 : IVec S_ 1 := andi main_v23 main_v27
  main_v28

def fn {F : FTy → Type} [FloatOps F] (main_arg0 : FVec F S131072x13x13 .f32) (main_arg1 : FVec F S131072x13x13 .f32) (main_arg2 : FVec F S131072x13x13 .f32) (main_arg3 : FVec F S131072x1 .f32) (main_arg4 : FVec F S169x169 .f32) (main_arg5 : FVec F S169 .f32) : IVec S_ 1 :=
  let main_v0 : FVec F S131072x13x13 .f32 := Host.absf main_arg0
  let main_cst : FVec F S_ .f32 := constant S_ .f32 0x7F800000#32
  let main_v1 : FVec F S131072x13x13 .f32 := broadcastInDim S131072x13x13 ![] bcast_S_S131072x13x13 main_cst
  let main_v2 : IVec S131072x13x13 1 := cmpf .olt main_v0 main_v1
  let main_c : IVec S_ 1 := constantI S_ 1 1#1
  let main_v3 : IVec S_ 1 := (fun x v => Host.reduce IntOp.andi x v reducesTo_S131072x13x13_S_d0_1_2 h_S_) main_v2 main_c
  let main_v4 : FVec F S131072x13x13 .f32 := Host.absf main_arg1
  let main_cst_0 : FVec F S_ .f32 := constant S_ .f32 0x7F800000#32
  let main_v5 : FVec F S131072x13x13 .f32 := broadcastInDim S131072x13x13 ![] bcast_S_S131072x13x13 main_cst_0
  let main_v6 : IVec S131072x13x13 1 := cmpf .olt main_v4 main_v5
  let main_c_1 : IVec S_ 1 := constantI S_ 1 1#1
  let main_v7 : IVec S_ 1 := (fun x v => Host.reduce IntOp.andi x v reducesTo_S131072x13x13_S_d0_1_2 h_S_) main_v6 main_c_1
  let main_v8 : IVec S_ 1 := andi main_v3 main_v7
  let main_v9 : FVec F S131072x13x13 .f32 := Host.absf main_arg2
  let main_cst_2 : FVec F S_ .f32 := constant S_ .f32 0x7F800000#32
  let main_v10 : FVec F S131072x13x13 .f32 := broadcastInDim S131072x13x13 ![] bcast_S_S131072x13x13 main_cst_2
  let main_v11 : IVec S131072x13x13 1 := cmpf .olt main_v9 main_v10
  let main_c_3 : IVec S_ 1 := constantI S_ 1 1#1
  let main_v12 : IVec S_ 1 := (fun x v => Host.reduce IntOp.andi x v reducesTo_S131072x13x13_S_d0_1_2 h_S_) main_v11 main_c_3
  let main_v13 : IVec S_ 1 := andi main_v8 main_v12
  let main_v14 : FVec F S131072x1 .f32 := Host.absf main_arg3
  let main_cst_4 : FVec F S_ .f32 := constant S_ .f32 0x7F800000#32
  let main_v15 : FVec F S131072x1 .f32 := broadcastInDim S131072x1 ![] bcast_S_S131072x1 main_cst_4
  let main_v16 : IVec S131072x1 1 := cmpf .olt main_v14 main_v15
  fn_part1 (F := F) main_arg4 main_arg5 main_v13 main_v16
-- ==== Kernel.lean ====
abbrev S131072x13x13 : Shape := ⟨3, ![131072, 13, 13]⟩
abbrev S131072x1 : Shape := ⟨2, ![131072, 1]⟩
abbrev S169x169 : Shape := ⟨2, ![169, 169]⟩
abbrev S169 : Shape := ⟨1, ![169]⟩
abbrev S131072x169 : Shape := ⟨2, ![131072, 169]⟩
abbrev S1x169 : Shape := ⟨2, ![1, 169]⟩
abbrev S1x1 : Shape := ⟨2, ![1, 1]⟩
abbrev S2048x169 : Shape := ⟨2, ![2048, 169]⟩
abbrev S2048x1 : Shape := ⟨2, ![2048, 1]⟩
abbrev S2048 : Shape := ⟨1, ![2048]⟩
abbrev S1 : Shape := ⟨1, ![1]⟩
abbrev S_ : Shape := ⟨0, ![]⟩

abbrev nBuf : Space → Nat
  | .hbm => 16
  | .vmem => 12
  | .smem => 0
  | _ => 0

abbrev bufTy : (tb : Table) → Fin (tcTables nBuf tb) → BufTy
  | .hbm, ⟨0, _⟩ => ⟨S131072x13x13, .f32⟩
  | .hbm, ⟨1, _⟩ => ⟨S131072x13x13, .f32⟩
  | .hbm, ⟨2, _⟩ => ⟨S131072x13x13, .f32⟩
  | .hbm, ⟨3, _⟩ => ⟨S131072x1, .f32⟩
  | .hbm, ⟨4, _⟩ => ⟨S169x169, .f32⟩
  | .hbm, ⟨5, _⟩ => ⟨S169, .f32⟩
  | .hbm, ⟨6, _⟩ => ⟨S131072x169, .f32⟩
  | .hbm, ⟨7, _⟩ => ⟨S131072x169, .f32⟩
  | .hbm, ⟨8, _⟩ => ⟨S131072x169, .f32⟩
  | .hbm, ⟨9, _⟩ => ⟨S169x169, .f32⟩
  | .hbm, ⟨10, _⟩ => ⟨S169x169, .bf16⟩
  | .hbm, ⟨11, _⟩ => ⟨S1x169, .f32⟩
  | .hbm, ⟨12, _⟩ => ⟨S1x1, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S2048x169, .f32⟩
  | .local _ .vmem, ⟨1, _⟩ => ⟨S2048x169, .f32⟩
  | .local _ .vmem, ⟨2, _⟩ => ⟨S2048x169, .f32⟩
  | .local _ .vmem, ⟨3, _⟩ => ⟨S2048x169, .f32⟩
  | .local _ .vmem, ⟨4, _⟩ => ⟨S2048x169, .f32⟩
  | .local _ .vmem, ⟨5, _⟩ => ⟨S2048x169, .f32⟩
  | .local _ .vmem, ⟨6, _⟩ => ⟨S2048x1, .f32⟩
  | .local _ .vmem, ⟨7, _⟩ => ⟨S2048x1, .f32⟩
  | .local _ .vmem, ⟨8, _⟩ => ⟨S169x169, .bf16⟩
  | .local _ .vmem, ⟨9, _⟩ => ⟨S1x169, .f32⟩
  | .local _ .vmem, ⟨10, _⟩ => ⟨S1x1, .f32⟩
  | .local _ .vmem, ⟨11, _⟩ => ⟨S1x1, .f32⟩
  | _, _ => ⟨S131072x13x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v39 : BitVec 1 := Scalar.cmpi .eq arg0 c63_i32
  let v40 : BitVec 32 := Scalar.extui v39
  let c0_i32_19 : BitVec 32 := 0#32
  let v41 : BitVec 1 := Scalar.cmpi .ne v40 c0_i32_19
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x169 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x169 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x169 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S169x169 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x169 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  shapeCasts_S131072x13x13_S131072x169 : S131072x13x13.ShapeCasts S131072x169
  transposes_S169x169_S169x169_1_0 : S169x169.Transposes [1, 0] S169x169
  bitsLt_bf16_f32 : FTy.bits .bf16 < FTy.bits .f32
  shapeCasts_S169_S1x169 : S169.ShapeCasts S1x169
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x169_S2048x169_0_0 : ∀ a, (![0, 0] : Fin 2 → Nat) a + S2048x169.size a ≤ S2048x169.size a
  h_S2048x169 : 0 < S2048x169.numel
  shapeCasts_S2048x169_S2048x169 : S2048x169.ShapeCasts S2048x169
  inb_S169x169_S169x169_0_0 : ∀ a, (![0, 0] : Fin 2 → Nat) a + S169x169.size a ≤ S169x169.size a
  h_S169x169 : 0 < S169x169.numel
  shapeCasts_S169x169_S169x169 : S169x169.ShapeCasts S169x169
  inb_S2048x1_S2048x1_0_0 : ∀ a, (![0, 0] : Fin 2 → Nat) a + S2048x1.size a ≤ S2048x1.size a
  h_S2048x1 : 0 < S2048x1.numel
  inb_S1x169_S1x169_0_0 : ∀ a, (![0, 0] : Fin 2 → Nat) a + S1x169.size a ≤ S1x169.size a
  h_S1x169 : 0 < S1x169.numel
  shapeCasts_S1x169_S1x169 : S1x169.ShapeCasts S1x169
  broadcasts_S2048x1_S2048x169 : S2048x1.Broadcasts S2048x169
  broadcasts_S1x169_S2048x169 : S1x169.Broadcasts S2048x169
  reduces_S2048x169_S2048 : S2048x169.Reduces [1] S2048
  shapeCasts_S2048_S2048x1 : S2048.ShapeCasts S2048x1
  reduces_S2048x1_S1 : S2048x1.Reduces [0] S1
  shapeCasts_S1_S1x1 : S1.ShapeCasts S1x1
  shapeCasts_S1x1_S_ : S1x1.ShapeCasts S_
  dot_S2048x169_S169x169_S2048x169_1_0_0_1_n_n_wf : DotDims.WF S2048x169 S169x169 S2048x169 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x169.size a ≤ S131072x169.size a
  hwx0_0 : ∀ i : grid0.Coords, EltTy.bits .f32 = 32 ∨ (Rect.block (s := S131072x169) S2048x169.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x169.size a ≤ S131072x169.size a
  hwx0_1 : ∀ i : grid0.Coords, EltTy.bits .f32 = 32 ∨ (Rect.block (s := S131072x169) S2048x169.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x169.size a ≤ S131072x169.size a
  hwx0_2 : ∀ i : grid0.Coords, EltTy.bits .f32 = 32 ∨ (Rect.block (s := S131072x169) S2048x169.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S131072x1.size a
  hwx0_3 : ∀ i : grid0.Coords, EltTy.bits .f32 = 32 ∨ (Rect.block (s := S131072x1) S2048x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S169x169.size a ≤ S169x169.size a
  hwx0_4 : ∀ i : grid0.Coords, EltTy.bits .bf16 = 32 ∨ (Rect.block (s := S169x169) S169x169.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x169.size a ≤ S1x169.size a
  hwx0_5 : ∀ i : grid0.Coords, EltTy.bits .f32 = 32 ∨ (Rect.block (s := S1x169) S1x169.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)

variable [Facts₀]

def dot_S2048x169_S169x169_S2048x169_1_0_0_1_n_n : DotDims S2048x169 S169x169 S2048x169 where
  lhsContracting := [1]
  rhsContracting := [0]
  lhsNonContracting := [0]
  rhsNonContracting := [1]
  lhsBatch := []
  rhsBatch := []
  wf := dot_S2048x169_S169x169_S2048x169_1_0_0_1_n_n_wf

abbrev win0_0 : Pipeline.Window sig grid0 :=
  Pipeline.Window.ofSpec (Memref.whole main_v0) S2048x169.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x169.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x169.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S169x169.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x169.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S131072x13x13 : Shape := ⟨3, ![131072, 13, 13]⟩
abbrev S131072x1 : Shape := ⟨2, ![131072, 1]⟩
abbrev S169x169 : Shape := ⟨2, ![169, 169]⟩
abbrev S169 : Shape := ⟨1, ![169]⟩
abbrev S131072x169 : Shape := ⟨2, ![131072, 169]⟩
abbrev S1x169 : Shape := ⟨2, ![1, 169]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S131072x13x13, .f32⟩
  | .hbm, ⟨1, _⟩ => ⟨S131072x13x13, .f32⟩
  | .hbm, ⟨2, _⟩ => ⟨S131072x13x13, .f32⟩
  | .hbm, ⟨3, _⟩ => ⟨S131072x1, .f32⟩
  | .hbm, ⟨4, _⟩ => ⟨S169x169, .f32⟩
  | .hbm, ⟨5, _⟩ => ⟨S169, .f32⟩
  | .hbm, ⟨6, _⟩ => ⟨S131072x169, .f32⟩
  | .hbm, ⟨7, _⟩ => ⟨S131072x169, .f32⟩
  | .hbm, ⟨8, _⟩ => ⟨S131072x169, .f32⟩
  | .hbm, ⟨9, _⟩ => ⟨S131072x169, .f32⟩
  | .hbm, ⟨10, _⟩ => ⟨S131072x169, .f32⟩
  | .hbm, ⟨11, _⟩ => ⟨S1x169, .f32⟩
  | .hbm, ⟨12, _⟩ => ⟨S_, .f32⟩
  | .hbm, ⟨13, _⟩ => ⟨S1x169, .f32⟩
  | .hbm, ⟨14, _⟩ => ⟨S1x169, .f32⟩
  | .hbm, ⟨15, _⟩ => ⟨S131072x169, .f32⟩
  | .hbm, ⟨16, _⟩ => ⟨S131072x169, .f32⟩
  | .hbm, ⟨17, _⟩ => ⟨S131072x1, .f32⟩
  | .hbm, ⟨18, _⟩ => ⟨S131072x1, .f32⟩
  | .hbm, ⟨19, _⟩ => ⟨S131072x169, .f32⟩
  | .hbm, ⟨20, _⟩ => ⟨S131072x169, .f32⟩
  | .hbm, ⟨21, _⟩ => ⟨S131072x169, .f32⟩
  | .hbm, ⟨22, _⟩ => ⟨S131072x169, .f32⟩
  | .hbm, ⟨23, _⟩ => ⟨S131072x169, .f32⟩
  | .hbm, ⟨24, _⟩ => ⟨S131072x169, .f32⟩
  | .hbm, ⟨25, _⟩ => ⟨S131072x169, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | _, _ => ⟨S131072x13x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  shapeCasts_S131072x13x13_S131072x169 : S131072x13x13.ShapeCasts S131072x169
  bcast_S169_S1x169_1 : S169.BroadcastsInDim S1x169 (![1] : Fin 1 → Fin S1x169.rank)
  bcast_S_S1x169 : S_.BroadcastsInDim S1x169 (![] : Fin 0 → Fin S1x169.rank)
  bcast_S131072x1_S131072x169_0_1 : S131072x1.BroadcastsInDim S131072x169 (![0, 1] : Fin 2 → Fin S131072x169.rank)
  bcast_S1x169_S131072x169_0_1 : S1x169.BroadcastsInDim S131072x169 (![0, 1] : Fin 2 → Fin S131072x169.rank)
  reducesTo_S131072x169_S_d0_1 : S131072x169.ReducesTo [0, 1] S_
  h_S_ : 0 < S_.numel
  dot_S131072x169_S169x169_S131072x169_1_1_0_0_n_n_wf : DotDims.WF S131072x169 S169x169 S131072x169 [1] [1] [0] [0] [] []

variable [Facts₀]

def dot_S131072x169_S169x169_S131072x169_1_1_0_0_n_n : DotDims S131072x169 S169x169 S131072x169 where
  lhsContracting := [1]
  rhsContracting := [1]
  lhsNonContracting := [0]
  rhsNonContracting := [0]
  lhsBatch := []
  rhsBatch := []
  wf := dot_S131072x169_S169x169_S131072x169_1_1_0_0_n_n_wf

class Facts : Prop extends Facts₀ where

variable [Facts]
-- ==== Proof.LibColumn.lean ====
/-
  Column vectors read at an index given by coordinates.

  A sum or maximum taken with `keepdims` leaves a column `[a, 1]`, which is then spread over the lanes. These three
  readings complete the library's list of small layout forms (leading unit axes, one row spread over many rows)
  with the column ones: a vector `[a]` viewed as a column, a row `[1, a]` viewed as a column, and a column `[a, 1]`
  spread to `[a, b]`. Each is the general lemma for its operation with the coordinate arithmetic done: a shape cast
  keeps the row-major position, and a broadcast reads coordinate 0 on a unit axis.
-/
import Idealize.ShloMosaic.Lib.ValueLayout

namespace Cert.LibColumn

open Idealize.ShloMosaic Idealize.ShloMosaic.ValueIdx

variable {α : Type}

/-- An `[a]` vector cast to an `[a, 1]` column reads, at `(i, u)`, the vector at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, a]` row cast to an `[a, 1]` column reads, at `(i, u)`, the row at `(0, i)`. -/
theorem shapeCast_1a_a1_apply {a : ℕ} (x : (⟨2, ![1, a]⟩ : Shape).Idx → α) (h : (⟨2, ![1, a]⟩ : Shape).ShapeCasts ⟨2, ![a, 1]⟩)
    (i : Fin a) (u : Fin 1) : shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- An `[a, 1]` column broadcast to `[a, b]` reads, at `(p, c)`, the column at `p`: every lane of a row holds the row's one
    entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Spec.lean ====
/-
  The mean absolute heat imbalance of a 13 × 13 plate over a batch of 131072 temperature fields.

  For sample `b` and node `n` the imbalance is

      | Σₖ T[b,k]·K[n,k]  +  (σ·e[n])·((T[b,n]·T[b,n])·(T[b,n]·T[b,n]) − (Tenv[b]·Tenv[b])·(Tenv[b]·Tenv[b]))  −  (H[b,n] + I[b,n]) |,

  conduction plus radiation minus the applied load, and the result is the sum of all 131072 × 169 imbalances divided
  by their number. Both programs compute each imbalance by the same operations in the same order; they differ only in
  how the one big sum is grouped. One takes it whole. The other walks the batch in 64 tiles of 2048 samples, sums each
  tile sample by sample, and adds tile after tile into a running total that starts at zero. Addition of extended reals
  is commutative and associative, so the grouping does not matter, and no finiteness is used anywhere.

  This module states the imbalance and the sums, and proves the regrouping: the running total after `n + 1` tiles is
  the total after `n` tiles plus the samples of tile `n`, and after all 64 tiles it is the whole sum.
-/
import Idealize.ShloMosaic.Lib.ValueIdx
import Idealize.ShloMosaic.PureOps.Ideal.Laws

noncomputable section

namespace Cert.PlateBalance

open Idealize.ShloMosaic Idealize.ShloMosaic.ValueIdx

/-- Temperatures, heater loads and interface loads: one row of 169 nodes per sample. -/
abbrev SBN : Shape := ⟨2, ![131072, 169]⟩
/-- The environment temperature: one entry per sample. -/
abbrev SB1 : Shape := ⟨2, ![131072, 1]⟩
/-- The conduction matrix. -/
abbrev SNN : Shape := ⟨2, ![169, 169]⟩
/-- The emissivity of each node. -/
abbrev SN : Shape := ⟨1, ![169]⟩

/-- The Stefan–Boltzmann constant as the single-precision pattern both programs carry; it is never evaluated. -/
def sigma : EReal := Ideal.ofBits .f32 0x3373864F#32

/-- The absolute value of an extended real, as the larger of the number and its negative. -/
def absE (x : EReal) : EReal := max x (-x)

/-- The imbalance of one node: `Trow` is its sample's temperatures, `Krow` the node's row of the conduction matrix,
    `tn` the node's own temperature, `te` the environment's, `e` the node's emissivity, `q` its load. -/
def imbalance (Trow Krow : Fin 169 → EReal) (tn te e q : EReal) : EReal :=
  absE ((∑ k : Fin 169, Trow k * Krow k) + sigma * e * (tn * tn * (tn * tn) - te * te * (te * te)) - q)

section Arrays

variable (T H I : SBN.Idx → EReal) (Te : SB1.Idx → EReal) (K : SNN.Idx → EReal) (E : SN.Idx → EReal)

/-- The imbalance of node `n` in sample `b`, read off the whole arrays. -/
def nodeImbalance (b : Fin 131072) (n : Fin 169) : EReal :=
  imbalance (fun k => T (ix2 b k)) (fun k => K (ix2 n k)) (T (ix2 b n)) (Te (ix2 b (0 : Fin 1))) (E (ix1 n))
    (H (ix2 b n) + I (ix2 b n))

/-- The sum of a sample's 169 imbalances; zero past the end of the batch, so that sums over ranges of naturals make
    sense. -/
def sampleSum (b : ℕ) : EReal :=
  if h : b < 131072 then ∑ n : Fin 169, nodeImbalance T H I Te K E ⟨b, h⟩ n else 0

/-- The sum of every imbalance. -/
def total : EReal := ∑ b ∈ Finset.range 131072, sampleSum T H I Te K E b

/-- The sum over the first `n` tiles of 2048 samples. -/
def afterTiles (n : ℕ) : EReal := ∑ b ∈ Finset.range (2048 * n), sampleSum T H I Te K E b

theorem sampleSum_of_lt (b : ℕ) (h : b < 131072) :
    sampleSum T H I Te K E b = ∑ n : Fin 169, nodeImbalance T H I Te K E ⟨b, h⟩ n := dif_pos h

/-- Before the first tile nothing has been summed. -/
theorem afterTiles_zero : afterTiles T H I Te K E 0 = 0 := by
  unfold afterTiles; rw [Nat.mul_zero, Finset.range_zero, Finset.sum_empty]

/-- One more tile adds its 2048 samples. -/
theorem afterTiles_succ (n : ℕ) :
    afterTiles T H I Te K E (n + 1)
      = afterTiles T H I Te K E n + ∑ r : Fin 2048, sampleSum T H I Te K E (2048 * n + r.val) := by
  unfold afterTiles
  rw [Nat.mul_succ, Finset.sum_range_add]
  exact congrArg _ (Finset.sum_range fun x => sampleSum T H I Te K E (2048 * n + x))

/-- The 64 tiles are the whole batch. -/
theorem afterTiles_all : afterTiles T H I Te K E 64 = total T H I Te K E := rfl

/-- The whole sum, sample by sample and node by node. -/
theorem total_eq_sum : total T H I Te K E = ∑ b : Fin 131072, ∑ n : Fin 169, nodeImbalance T H I Te K E b n := by
  unfold total
  rw [Finset.sum_range]
  exact Finset.sum_congr rfl fun b _ => sampleSum_of_lt T H I Te K E b.val b.isLt

/-- The result: the whole sum divided by the number of imbalances, 131072 · 169 = 22151168, carried by both programs
    as the single-precision pattern `0x4BA90000`, which is never evaluated. -/
def mean : EReal := Ideal.div (total T H I Te K E) (Ideal.ofBits .f32 0x4BA90000#32)

end Arrays

-- The sums are used from here on only through the lemmas above: nothing should ever unfold a sum over 131072 samples.
attribute [irreducible] sampleSum total afterTiles

end Cert.PlateBalance

end
-- ==== Proof.Tile.lean ====
/-
  One tile of 2048 samples, as the kernel's arithmetic computes it.

  The kernel's step takes a block of temperatures `x0`, of heater loads `x1` and of interface loads `x2` (2048 × 169
  each), the block's environment temperatures `x3` (2048 × 1), the transposed conduction matrix `x4` (169 × 169, so
  that `x4[k, n]` is the coefficient of node `k` in node `n`'s row) and the emissivities `x5` (1 × 169), forms the
  array of absolute imbalances, sums each sample's 169 nodes, sums the 2048 samples, and adds that to the value `xs`
  it carries. Read on the extended reals, where a change of float format does nothing and the matrix product into a
  zero accumulator is a plain sum, the result is `xs` plus the tile's imbalances, sample by sample and node by node.
-/
import proofs.«107959_j8881992368533_1_alg».proof.Proof.Gen.KernelIdeal.Skeleton
import proofs.«107959_j8881992368533_1_alg».proof.Proof.LibColumn
import proofs.«107959_j8881992368533_1_alg».proof.Proof.Spec
import Idealize.ShloMosaic.Lib.ValueLayout
import Idealize.ShloMosaic.Lib.Pipeline.Value
import Idealize.ShloMosaic.PureOps.Ideal.Laws

noncomputable section

namespace Cert.PlateBalance.Tile

open Idealize.ShloMosaic Idealize.ShloMosaic.ValueIdx Cert.KernelIdeal Cert.KernelIdeal.Gen Cert.PlateBalance

/-! ## The matrix product at an index -/

/-- The left operand is read at the output's row … -/
theorem lhs_row (i : S2048x169.Idx) (q : dot_S2048x169_S169x169_S2048x169_1_0_0_1_n_n.contr.Idx) :
    (dot_S2048x169_S169x169_S2048x169_1_0_0_1_n_n.lhsIdx i q 0).val = (i 0).val := by
  unfold DotDims.lhsIdx
  rw [dif_neg (show ¬(0 : Fin S2048x169.rank) ∈ dot_S2048x169_S169x169_S2048x169_1_0_0_1_n_n.lhsBatch by decide),
    dif_pos (show (0 : Fin S2048x169.rank) ∈ dot_S2048x169_S169x169_S2048x169_1_0_0_1_n_n.lhsNonContracting by decide)]
  rfl
/-- … and at the contraction position along its second axis. -/
theorem lhs_contr (i : S2048x169.Idx) (q : dot_S2048x169_S169x169_S2048x169_1_0_0_1_n_n.contr.Idx) :
    (dot_S2048x169_S169x169_S2048x169_1_0_0_1_n_n.lhsIdx i q 1).val = (q ⟨0, by decide⟩).val :=
  dot_S2048x169_S169x169_S2048x169_1_0_0_1_n_n.lhsIdx_val_of_single rfl i q
/-- The right operand is read at the contraction position along its first axis … -/
theorem rhs_contr (i : S2048x169.Idx) (q : dot_S2048x169_S169x169_S2048x169_1_0_0_1_n_n.contr.Idx) :
    (dot_S2048x169_S169x169_S2048x169_1_0_0_1_n_n.rhsIdx i q 0).val = (q ⟨0, by decide⟩).val :=
  dot_S2048x169_S169x169_S2048x169_1_0_0_1_n_n.rhsIdx_val_of_single rfl i q
/-- … and at the output's column. -/
theorem rhs_col (i : S2048x169.Idx) (q : dot_S2048x169_S169x169_S2048x169_1_0_0_1_n_n.contr.Idx) :
    (dot_S2048x169_S169x169_S2048x169_1_0_0_1_n_n.rhsIdx i q 1).val = (i 1).val := by
  unfold DotDims.rhsIdx
  rw [dif_neg (show ¬(1 : Fin S169x169.rank) ∈ dot_S2048x169_S169x169_S2048x169_1_0_0_1_n_n.rhsBatch by decide),
    dif_pos (show (1 : Fin S169x169.rank) ∈ dot_S2048x169_S169x169_S2048x169_1_0_0_1_n_n.rhsNonContracting by decide)]
  rfl

/-- Into a zero accumulator the product at `(r, n)` is `Σₖ a[r, k] · w[k, n]`. -/
theorem matmul_at (a : FVec Ideal S2048x169 .bf16) (w : FVec Ideal S169x169 .bf16) (r : Fin 2048) (n : Fin 169) :
    matmul dot_S2048x169_S169x169_S2048x169_1_0_0_1_n_n none a w (constant S2048x169 .f32 0x00000000#32) (ix2 r n)
      = ∑ k : Fin 169, a (ix2 r k) * w (ix2 k n) := by
  simp only [matmul]
  rw [Ideal.matmul_constant_zero_apply,
    ← Equiv.sum_comp (contrEquiv1 dot_S2048x169_S169x169_S2048x169_1_0_0_1_n_n 169 rfl rfl).symm]
  refine Finset.sum_congr rfl fun k _ => ?_
  have hk := contrEquiv1_symm_val dot_S2048x169_S169x169_S2048x169_1_0_0_1_n_n 169 rfl rfl k
  have el : dot_S2048x169_S169x169_S2048x169_1_0_0_1_n_n.lhsIdx (ix2 r n)
      ((contrEquiv1 dot_S2048x169_S169x169_S2048x169_1_0_0_1_n_n 169 rfl rfl).symm k) = ix2 r k :=
    funext fun ax => Fin.ext (by
      match ax with
      | ⟨0, _⟩ => exact lhs_row _ _
      | ⟨1, _⟩ => exact (lhs_contr _ _).trans hk)
  have er : dot_S2048x169_S169x169_S2048x169_1_0_0_1_n_n.rhsIdx (ix2 r n)
      ((contrEquiv1 dot_S2048x169_S169x169_S2048x169_1_0_0_1_n_n 169 rfl rfl).symm k) = ix2 k n :=
    funext fun ax => Fin.ext (by
      match ax with
      | ⟨0, _⟩ => exact (rhs_contr _ _).trans hk
      | ⟨1, _⟩ => exact rhs_col _ _)
  rw [el, er]

/-! ## The two lane sums -/

/-- A sample's row of 169 entries summed. -/
theorem rowSum_at (src : FVec Ideal S2048x169 .f32) (h : S2048x169.Reduces [1] S2048) (hφ : FKind.Formats .f32)
    (hacc : (0x00000000#32 : BitVec 32) = FKind.add.neutral .f32 hφ) (r : Fin 2048) :
    multiReduction .add [1] S2048 src 0x00000000#32 h hφ hacc (ix1 r) = ∑ n : Fin 169, src (ix2 r n) :=
  (Ideal.multiReduction_add_single src _ h hφ hacc (ix1 r)).trans
    (Finset.sum_congr rfl fun n _ => congrArg src (funext fun ax => Fin.ext (by
      match ax with
      | ⟨0, _⟩ => rfl
      | ⟨1, _⟩ => rfl)))

/-- A column of 2048 entries summed. -/
theorem colSum_at (src : FVec Ideal S2048x1 .f32) (h : S2048x1.Reduces [0] S1) (hφ : FKind.Formats .f32)
    (hacc : (0x00000000#32 : BitVec 32) = FKind.add.neutral .f32 hφ) (u : Fin 1) :
    multiReduction .add [0] S1 src 0x00000000#32 h hφ hacc (ix1 u) = ∑ r : Fin 2048, src (ix2 r u) :=
  (Ideal.multiReduction_add_single src _ h hφ hacc (ix1 u)).trans
    (Finset.sum_congr rfl fun r _ => congrArg src (funext fun ax => Fin.ext (by
      match ax with
      | ⟨0, _⟩ => rfl
      | ⟨1, _⟩ => rfl)))

/-! ## The tile's imbalances -/

section
variable (x0 x1 x2 : FVec Ideal S2048x169 .f32) (x3 : FVec Ideal S2048x1 .f32) (x4 : FVec Ideal S169x169 .bf16)
  (x5 : FVec Ideal S1x169 .f32)

/-- The imbalance of node `n` of the tile's sample `r`, read off the blocks. -/
def cell (r : Fin 2048) (n : Fin 169) : EReal :=
  imbalance (fun k => x0 (ix2 r k)) (fun k => x4 (ix2 k n)) (x0 (ix2 r n)) (x3 (ix2 r (0 : Fin 1)))
    (x5 (ix2 (0 : Fin 1) n)) (x1 (ix2 r n) + x2 (ix2 r n))

/-- The kernel's step is the carried value plus the tile's imbalances. -/
theorem step_apply (xs : FVec Ideal S1x1 .f32) (j : S1x1.Idx) :
    k0_pay3 (F := Ideal) x0 x1 x2 x4 x3 x5 xs j
      = xs j + ∑ r : Fin 2048, ∑ n : Fin 169, cell x0 x1 x2 x3 x4 x5 r n := by
  obtain ⟨p, q, rfl⟩ : ∃ (p q : Fin 1), j = ix2 p q := ⟨j 0, j 1, eq_ix2 j⟩
  unfold k0_pay3
  dsimp only
  show xs (ix2 p q) + _ = xs (ix2 p q) + _
  congr 1
  refine (Cert.LibColumn.shapeCast_a_a1_apply _ _ p q).trans ?_
  refine (colSum_at _ _ _ _ p).trans ?_
  refine Finset.sum_congr rfl fun r _ => ?_
  refine (Cert.LibColumn.shapeCast_a_a1_apply _ _ r p).trans ?_
  refine (rowSum_at _ _ _ _ r).trans ?_
  refine Finset.sum_congr rfl fun n _ => ?_
  simp only [shapeCast_self]
  unfold cell imbalance
  show absE (_ + _ * (_ - _) - _) = absE (_ + _ * (_ - _) - _)
  rw [matmul_at, broadcastTo_1b_ab_apply, Cert.LibColumn.broadcastTo_a1_ab_apply]
  rfl

/-- What a point leaves in the carried value: what it found there, plus its tile. -/
theorem carried_apply (xs : FVec Ideal S1x1 .f32) (j : S1x1.Idx) :
    k0_pay1 (F := Ideal) (k0_pay3 (F := Ideal) x0 x1 x2 x4 x3 x5 xs) j
      = xs j + ∑ r : Fin 2048, ∑ n : Fin 169, cell x0 x1 x2 x3 x4 x5 r n := by
  unfold k0_pay1
  rw [shapeCast_self]
  exact step_apply x0 x1 x2 x3 x4 x5 xs j

end

/-- The reset stores zero. -/
theorem reset_apply (j : S1x1.Idx) : k0_pay2 (F := Ideal) j = 0 := by
  unfold k0_pay2
  rw [shapeCast_self]
  exact Ideal.ofBits_zero_f32

end Cert.PlateBalance.Tile

end
-- ==== Proof.Blocks.lean ====
/-
  The blocks a grid point sees, read off the argument arrays.

  Before the region the temperatures, heater loads and interface loads are flattened from 13 × 13 plates to rows of
  169 nodes, the conduction matrix is transposed (and its format changed, which on the extended reals does nothing),
  and the emissivities become a one-row matrix. Point `t` of the grid sees rows `2048·t … 2048·t + 2047` of the three
  flattened arrays and of the environment temperatures, and the whole transposed matrix and emissivity row. So the
  imbalance the kernel computes for row `r` of its tile is the specification's imbalance of sample `2048·t + r`.
-/
import proofs.«107959_j8881992368533_1_alg».proof.Proof.Gen.KernelIdeal.Frame
import proofs.«107959_j8881992368533_1_alg».proof.Proof.Tile
import Idealize.ShloMosaic.Lib.Pipeline.Value
import Idealize.ShloMosaic.Lib.ValueLayout
import Idealize.ShloMosaic.Lib.StableHlo.Run

set_option maxRecDepth 16384

noncomputable section

namespace Cert.PlateBalance.Blocks

open Idealize.ShloMosaic Idealize.ShloMosaic.TcCoe Idealize.ShloMosaic.ValueIdx Idealize.SL.Sem
open Cert.KernelIdeal Cert.KernelIdeal.Gen Cert.PlateBalance

variable (m : (ℓ : Loc nD τ sig) → Buf (Elt Ideal) ℓ)

/-! ## The arrays of the specification, from the arguments -/

/-- Temperatures, one row per sample. -/
def temps (c : Dev nD) : SBN.Idx → EReal :=
  shapeCast S131072x169 (m ((c : Thread nD τ).loc main_arg0)) shapeCasts_S131072x13x13_S131072x169
/-- Heater loads. -/
def heats (c : Dev nD) : SBN.Idx → EReal :=
  shapeCast S131072x169 (m ((c : Thread nD τ).loc main_arg1)) shapeCasts_S131072x13x13_S131072x169
/-- Interface loads. -/
def ifaces (c : Dev nD) : SBN.Idx → EReal :=
  shapeCast S131072x169 (m ((c : Thread nD τ).loc main_arg2)) shapeCasts_S131072x13x13_S131072x169
/-- Environment temperatures. -/
def envs (c : Dev nD) : SB1.Idx → EReal := m ((c : Thread nD τ).loc main_arg3)
/-- The conduction matrix. -/
def conds (c : Dev nD) : SNN.Idx → EReal := m ((c : Thread nD τ).loc main_arg4)
/-- The emissivities. -/
def emis (c : Dev nD) : SN.Idx → EReal := m ((c : Thread nD τ).loc main_arg5)

/-! ## What the region finds -/

theorem found_temps (c : Dev nD) : (V m c main_v0 : FVec Ideal S131072x169 .f32) = temps m c := by
  show StableHlo.after hostOps0 (fun b => m (c, b)) (Proc.devRef .tc main_v0) = _
  after_results
  rfl

theorem found_heats (c : Dev nD) : (V m c main_v1 : FVec Ideal S131072x169 .f32) = heats m c := by
  show StableHlo.after hostOps0 (fun b => m (c, b)) (Proc.devRef .tc main_v1) = _
  after_results
  rfl

theorem found_ifaces (c : Dev nD) : (V m c main_v2 : FVec Ideal S131072x169 .f32) = ifaces m c := by
  show StableHlo.after hostOps0 (fun b => m (c, b)) (Proc.devRef .tc main_v2) = _
  after_results
  rfl

theorem found_conds (c : Dev nD) : V m c main_v4
    = (truncf .bf16 (transpose S169x169 [1, 0] (conds m c) transposes_S169x169_S169x169_1_0) bitsLt_bf16_f32 :
        FVec Ideal S169x169 .bf16) := by
  show StableHlo.after hostOps0 (fun b => m (c, b)) (Proc.devRef .tc main_v4) = _
  after_results
  rfl

theorem found_emis (c : Dev nD) : V m c main_v5
    = (shapeCast S1x169 (emis m c) shapeCasts_S169_S1x169 : FVec Ideal S1x169 .f32) := by
  show StableHlo.after hostOps0 (fun b => m (c, b)) (Proc.devRef .tc main_v5) = _
  after_results
  rfl

theorem found_envs (c : Dev nD) : (V m c main_arg3 : FVec Ideal S131072x1 .f32) = envs m c := V_main_arg3 m c

/-! ## A point's blocks, read at an index -/

/-- Where each window's block sits at point `t`: the four batched windows at row block `t`, the two resident ones at
    the origin. Decided once over the 64 points. -/
theorem index_facts : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0) ∧ (win0_5.index t 0 = 0 ∧ win0_5.index t 1 = 0) :=
  (by decide +kernel : ∀ t : Fin grid0.N, _)

theorem temps_block (c : Dev nD) (t : Fin cfg0.N) (r : Fin 2048) (k : Fin 169) (h : 2048 * t.val + r.val < 131072) :
    (iblk m c 0 t : FVec Ideal S2048x169 .f32) (ix2 r k) = temps m c (ix2 ⟨2048 * t.val + r.val, h⟩ k) := by
  have hi := (index_facts t).1
  rw [← found_temps m c]
  unfold iblk
  rw [View.read_apply]
  show V m c main_v0 _ = V m c main_v0 _
  congr 1
  funext a
  apply Fin.ext
  match a with
  | ⟨0, _⟩ => show win0_0.index t 0 * 2048 + 1 * r.val = 2048 * t.val + r.val; rw [hi.1]; omega
  | ⟨1, _⟩ => show win0_0.index t 1 * 169 + 1 * k.val = k.val; rw [hi.2]; omega

/-- Heater loads of the tile's row `r`. -/
theorem heats_block (c : Dev nD) (t : Fin cfg0.N) (r : Fin 2048) (k : Fin 169) (h : 2048 * t.val + r.val < 131072) :
    (iblk m c 1 t : FVec Ideal S2048x169 .f32) (ix2 r k) = heats m c (ix2 ⟨2048 * t.val + r.val, h⟩ k) := by
  have hi := (index_facts t).2.1
  rw [← found_heats m c]
  unfold iblk
  rw [View.read_apply]
  show V m c main_v1 _ = V m c main_v1 _
  congr 1
  funext a
  apply Fin.ext
  match a with
  | ⟨0, _⟩ => show win0_1.index t 0 * 2048 + 1 * r.val = 2048 * t.val + r.val; rw [hi.1]; omega
  | ⟨1, _⟩ => show win0_1.index t 1 * 169 + 1 * k.val = k.val; rw [hi.2]; omega

/-- Interface loads of the tile's row `r`. -/
theorem ifaces_block (c : Dev nD) (t : Fin cfg0.N) (r : Fin 2048) (k : Fin 169) (h : 2048 * t.val + r.val < 131072) :
    (iblk m c 2 t : FVec Ideal S2048x169 .f32) (ix2 r k) = ifaces m c (ix2 ⟨2048 * t.val + r.val, h⟩ k) := by
  have hi := (index_facts t).2.2.1
  rw [← found_ifaces m c]
  unfold iblk
  rw [View.read_apply]
  show V m c main_v2 _ = V m c main_v2 _
  congr 1
  funext a
  apply Fin.ext
  match a with
  | ⟨0, _⟩ => show win0_2.index t 0 * 2048 + 1 * r.val = 2048 * t.val + r.val; rw [hi.1]; omega
  | ⟨1, _⟩ => show win0_2.index t 1 * 169 + 1 * k.val = k.val; rw [hi.2]; omega

/-- The environment temperature of the tile's row `r`. -/
theorem envs_block (c : Dev nD) (t : Fin cfg0.N) (r : Fin 2048) (k : Fin 1) (h : 2048 * t.val + r.val < 131072) :
    (iblk m c 3 t : FVec Ideal S2048x1 .f32) (ix2 r k) = envs m c (ix2 ⟨2048 * t.val + r.val, h⟩ k) := by
  have hi := (index_facts t).2.2.2.1
  rw [← found_envs m c]
  unfold iblk
  rw [View.read_apply]
  show V m c main_arg3 _ = V m c main_arg3 _
  congr 1
  funext a
  apply Fin.ext
  match a with
  | ⟨0, _⟩ => show win0_3.index t 0 * 2048 + 1 * r.val = 2048 * t.val + r.val; rw [hi.1]; omega
  | ⟨1, _⟩ => show win0_3.index t 1 * 1 + 1 * k.val = k.val; rw [hi.2]; omega

/-- The resident matrix block is the conduction matrix transposed: entry `(k, n)` is `K[n, k]`. -/
theorem conds_block (c : Dev nD) (t : Fin cfg0.N) (k n : Fin 169) :
    (iblk m c 4 t : FVec Ideal S169x169 .bf16) (ix2 k n) = conds m c (ix2 n k) := by
  have hi := (index_facts t).2.2.2.2.1
  have e : (iblk m c 4 t : FVec Ideal S169x169 .bf16) (ix2 k n) = V m c main_v4 (ix2 k n) := by
    unfold iblk
    rw [View.read_apply]
    show V m c main_v4 _ = V m c main_v4 _
    congr 1
    funext a
    apply Fin.ext
    match a with
    | ⟨0, _⟩ => show win0_4.index t 0 * 169 + 1 * k.val = k.val; rw [hi.1]; omega
    | ⟨1, _⟩ => show win0_4.index t 1 * 169 + 1 * n.val = n.val; rw [hi.2]; omega
  rw [e, found_conds m c]
  exact transpose_ix2_apply (conds m c) transposes_S169x169_S169x169_1_0 k n

/-- The resident emissivity row. -/
theorem emis_block (c : Dev nD) (t : Fin cfg0.N) (n : Fin 169) :
    (iblk m c 5 t : FVec Ideal S1x169 .f32) (ix2 (0 : Fin 1) n) = emis m c (ix1 n) := by
  have hi := (index_facts t).2.2.2.2.2
  have e : (iblk m c 5 t : FVec Ideal S1x169 .f32) (ix2 (0 : Fin 1) n) = V m c main_v5 (ix2 (0 : Fin 1) n) := by
    unfold iblk
    rw [View.read_apply]
    show V m c main_v5 _ = V m c main_v5 _
    congr 1
    funext a
    apply Fin.ext
    match a with
    | ⟨0, _⟩ => show win0_5.index t 0 * 1 + 1 * 0 = 0; rw [hi.1]
    | ⟨1, _⟩ => show win0_5.index t 1 * 169 + 1 * n.val = n.val; rw [hi.2]; omega
  rw [e, found_emis m c]
  exact shapeCast_a_1a_apply (emis m c) shapeCasts_S169_S1x169 (0 : Fin 1) n

/-! ## A tile's imbalances are the specification's -/

/-- Row `r` of the tile at point `t` is sample `2048·t + r`. -/
theorem cell_eq (c : Dev nD) (t : Fin cfg0.N) (r : Fin 2048) (n : Fin 169) (h : 2048 * t.val + r.val < 131072) :
    Tile.cell (iblk m c 0 t) (iblk m c 1 t) (iblk m c 2 t) (iblk m c 3 t) (iblk m c 4 t) (iblk m c 5 t) r n
      = nodeImbalance (temps m c) (heats m c) (ifaces m c) (envs m c) (conds m c) (emis m c) ⟨2048 * t.val + r.val, h⟩ n := by
  unfold Tile.cell nodeImbalance
  simp only [temps_block m c t r _ h, heats_block m c t r _ h, ifaces_block m c t r _ h, envs_block m c t r _ h,
    conds_block m c t, emis_block m c t]

/-- So the tile's sum is the sum of those samples. -/
theorem tile_sum (c : Dev nD) (t : Fin cfg0.N) :
    (∑ r : Fin 2048, ∑ n : Fin 169,
        Tile.cell (iblk m c 0 t) (iblk m c 1 t) (iblk m c 2 t) (iblk m c 3 t) (iblk m c 4 t) (iblk m c 5 t) r n)
      = ∑ r : Fin 2048, sampleSum (temps m c) (heats m c) (ifaces m c) (envs m c) (conds m c) (emis m c)
          (2048 * t.val + r.val) := by
  have hN : t.val < 64 := lt_of_lt_of_eq t.isLt (show cfg0.N = 64 from N_0)
  refine Finset.sum_congr rfl fun r _ => ?_
  have h : 2048 * t.val + r.val < 131072 := by have := r.isLt; omega
  rw [sampleSum_of_lt _ _ _ _ _ _ _ h]
  exact Finset.sum_congr rfl fun n _ => cell_eq m c t r n h

end Cert.PlateBalance.Blocks

end
-- ==== Proof.Pieces.lean ====
/-
  What each of the kernel's three control cases leaves behind, as arithmetic.

  The grid's first point resets the carried value to zero and then adds its tile; every later point adds its tile to
  what the point before left; the last point also copies the carried value into the output block. The symbolic run
  of each case records the stores it made as pieces over the one-entry buffer; read back, the newest piece is what
  the buffer holds, and a load of the buffer between two stores reads the older piece.
-/
import proofs.«107959_j8881992368533_1_alg».proof.Proof.Gen.KernelIdeal.Frame
import Idealize.ShloMosaic.Lib.Pipeline.Value

set_option maxRecDepth 16384

noncomputable section

namespace Cert.PlateBalance.Pieces

open Idealize.ShloMosaic Idealize.ShloMosaic.TcCoe Idealize.ShloMosaic.Tactic Idealize.SL Idealize.SL.Sem
open Cert.KernelIdeal Cert.KernelIdeal.Gen

variable {F : FTy → Type} [FloatOps F]

/-- The whole-buffer rectangle starts at the origin. -/
theorem hz : (![0, 0] : Fin 2 → Nat) = fun _ => 0 := by
  funext a; match a with | ⟨0, _⟩ => rfl | ⟨1, _⟩ => rfl

/-- First point: the carried value ends at zero plus the tile. -/
theorem carried_first (c : Dev nD) (i : grid0.Coords) (arg1 : Memref sig .tc .vmem S2048x169 .f32) (harg1 : arg1.IsWhole) (arg2 : Memref sig .tc .vmem S2048x169 .f32) (harg2 : arg2.IsWhole) (arg3 : Memref sig .tc .vmem S2048x169 .f32) (harg3 : arg3.IsWhole) (arg4 : Memref sig .tc .vmem S2048x1 .f32) (harg4 : arg4.IsWhole) (arg5 : Memref sig .tc .vmem S169x169 .bf16) (harg5 : arg5.IsWhole) (arg6 : Memref sig .tc .vmem S1x169 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i) (x0 : Vec F S2048x169 .f32) (x1 : Vec F S2048x169 .f32) (x2 : Vec F S2048x169 .f32) (x3 : Vec F S2048x1 .f32) (x4 : Vec F S169x169 .bf16) (x5 : Vec F S1x169 .f32) :
    sout0_A_0 (F := F) c i arg1 harg1 arg2 harg2 arg3 harg3 arg4 harg4 arg5 harg5 arg6 harg6 arg7 harg7 arg8 harg8 hc0 hc1 x0 x1 x2 x3 x4 x5
      = k0_pay1 (k0_pay3 x0 x1 x2 x4 x3 x5 (k0_pay2 (F := F))) := by
  unfold sout0_A_0
  rw [View.read_writes_eq_canon _ _ _ (scover0_A_0 c i arg1 harg1 arg2 harg2 arg3 harg3 arg4 harg4 arg5 harg5 arg6 harg6 arg7 harg7 arg8 harg8 hc0 hc1 x0 x1 x2 x3 x4 x5)]
  unfold kernelRun0_A
  dsimp only
  sl_unfold_words
  rw [View.canon_cons_unit_zero (S := S1x1) hz]
  simp only [View.readAt_eq_ld, harg1.read_unread, harg2.read_unread, harg3.read_unread, harg4.read_unread,
    harg5.read_unread, harg6.read_unread, harg8.read_unread, View.ld_unit_zero (S := S2048x169) hz,
    View.ld_unit_zero (S := S2048x1) hz, View.ld_unit_zero (S := S169x169) hz, View.ld_unit_zero (S := S1x169) hz,
    View.ld_unit_zero (S := S1x1) hz, View.readCov_unit_zero (S := S1x1) _ hz]

/-- A middle point: the carried value ends at what the point before left plus the tile. -/
theorem carried_middle (c : Dev nD) (i : grid0.Coords) (arg1 : Memref sig .tc .vmem S2048x169 .f32) (harg1 : arg1.IsWhole) (arg2 : Memref sig .tc .vmem S2048x169 .f32) (harg2 : arg2.IsWhole) (arg3 : Memref sig .tc .vmem S2048x169 .f32) (harg3 : arg3.IsWhole) (arg4 : Memref sig .tc .vmem S2048x1 .f32) (harg4 : arg4.IsWhole) (arg5 : Memref sig .tc .vmem S169x169 .bf16) (harg5 : arg5.IsWhole) (arg6 : Memref sig .tc .vmem S1x169 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i) (x0 : Vec F S2048x169 .f32) (x1 : Vec F S2048x169 .f32) (x2 : Vec F S2048x169 .f32) (x3 : Vec F S2048x1 .f32) (x4 : Vec F S169x169 .bf16) (x5 : Vec F S1x169 .f32)
    (xs0 : Vec F S1x1 .f32) :
    sout0_B_0 (F := F) c i arg1 harg1 arg2 harg2 arg3 harg3 arg4 harg4 arg5 harg5 arg6 harg6 arg7 harg7 arg8 harg8 hc0 hc1 x0 x1 x2 x3 x4 x5 xs0
      = k0_pay1 (k0_pay3 x0 x1 x2 x4 x3 x5 xs0) := by
  unfold sout0_B_0
  rw [View.read_writes_eq_canon _ _ _ (scover0_B_0 c i arg1 harg1 arg2 harg2 arg3 harg3 arg4 harg4 arg5 harg5 arg6 harg6 arg7 harg7 arg8 harg8 hc0 hc1 x0 x1 x2 x3 x4 x5 xs0)]
  unfold kernelRun0_B
  dsimp only
  sl_unfold_words
  rw [View.canon_unit_zero (S := S1x1) hz]
  simp only [View.readAt_eq_ld, harg1.read_unread, harg2.read_unread, harg3.read_unread, harg4.read_unread,
    harg5.read_unread, harg6.read_unread, harg8.read_unread, View.ld_unit_zero (S := S2048x169) hz,
    View.ld_unit_zero (S := S2048x1) hz, View.ld_unit_zero (S := S169x169) hz, View.ld_unit_zero (S := S1x169) hz,
    View.ld_unit_zero (S := S1x1) hz, View.readCov_unit_zero (S := S1x1) _ hz]

/-- The last point: the carried value likewise … -/
theorem carried_last (c : Dev nD) (i : grid0.Coords) (arg1 : Memref sig .tc .vmem S2048x169 .f32) (harg1 : arg1.IsWhole) (arg2 : Memref sig .tc .vmem S2048x169 .f32) (harg2 : arg2.IsWhole) (arg3 : Memref sig .tc .vmem S2048x169 .f32) (harg3 : arg3.IsWhole) (arg4 : Memref sig .tc .vmem S2048x1 .f32) (harg4 : arg4.IsWhole) (arg5 : Memref sig .tc .vmem S169x169 .bf16) (harg5 : arg5.IsWhole) (arg6 : Memref sig .tc .vmem S1x169 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i) (x0 : Vec F S2048x169 .f32) (x1 : Vec F S2048x169 .f32) (x2 : Vec F S2048x169 .f32) (x3 : Vec F S2048x1 .f32) (x4 : Vec F S169x169 .bf16) (x5 : Vec F S1x169 .f32)
    (xs0 : Vec F S1x1 .f32) :
    sout0_C_0 (F := F) c i arg1 harg1 arg2 harg2 arg3 harg3 arg4 harg4 arg5 harg5 arg6 harg6 arg7 harg7 arg8 harg8 hc0 hc1 x0 x1 x2 x3 x4 x5 xs0
      = k0_pay1 (k0_pay3 x0 x1 x2 x4 x3 x5 xs0) := by
  unfold sout0_C_0
  rw [View.read_writes_eq_canon _ _ _ (scover0_C_0 c i arg1 harg1 arg2 harg2 arg3 harg3 arg4 harg4 arg5 harg5 arg6 harg6 arg7 harg7 arg8 harg8 hc0 hc1 x0 x1 x2 x3 x4 x5 xs0)]
  unfold kernelRun0_C
  dsimp only
  sl_unfold_words
  rw [View.canon_unit_zero (S := S1x1) hz]
  simp only [View.readAt_eq_ld, harg1.read_unread, harg2.read_unread, harg3.read_unread, harg4.read_unread,
    harg5.read_unread, harg6.read_unread, harg8.read_unread, View.ld_unit_zero (S := S2048x169) hz,
    View.ld_unit_zero (S := S2048x1) hz, View.ld_unit_zero (S := S169x169) hz, View.ld_unit_zero (S := S1x169) hz,
    View.ld_unit_zero (S := S1x1) hz, View.readCov_unit_zero (S := S1x1) _ hz]

/-- … and the output block receives the same value. -/
theorem output_last (c : Dev nD) (i : grid0.Coords) (arg1 : Memref sig .tc .vmem S2048x169 .f32) (harg1 : arg1.IsWhole) (arg2 : Memref sig .tc .vmem S2048x169 .f32) (harg2 : arg2.IsWhole) (arg3 : Memref sig .tc .vmem S2048x169 .f32) (harg3 : arg3.IsWhole) (arg4 : Memref sig .tc .vmem S2048x1 .f32) (harg4 : arg4.IsWhole) (arg5 : Memref sig .tc .vmem S169x169 .bf16) (harg5 : arg5.IsWhole) (arg6 : Memref sig .tc .vmem S1x169 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i) (x0 : Vec F S2048x169 .f32) (x1 : Vec F S2048x169 .f32) (x2 : Vec F S2048x169 .f32) (x3 : Vec F S2048x1 .f32) (x4 : Vec F S169x169 .bf16) (x5 : Vec F S1x169 .f32)
    (xs0 : Vec F S1x1 .f32) :
    out0_C_6 (F := F) c i arg1 harg1 arg2 harg2 arg3 harg3 arg4 harg4 arg5 harg5 arg6 harg6 arg7 harg7 arg8 harg8 hc0 hc1 x0 x1 x2 x3 x4 x5 xs0
      = k0_pay1 (k0_pay3 x0 x1 x2 x4 x3 x5 xs0) := by
  unfold out0_C_6
  rw [View.read_writes_eq_canon _ _ _ (cover0_C_6 c i arg1 harg1 arg2 harg2 arg3 harg3 arg4 harg4 arg5 harg5 arg6 harg6 arg7 harg7 arg8 harg8 hc0 hc1 x0 x1 x2 x3 x4 x5 xs0)]
  unfold kernelRun0_C
  dsimp only
  sl_unfold_words
  rw [View.canon_unit_zero (S := S1x1) hz]
  simp only [View.readAt_eq_ld, harg1.read_unread, harg2.read_unread, harg3.read_unread, harg4.read_unread,
    harg5.read_unread, harg6.read_unread, harg8.read_unread, View.ld_unit_zero (S := S2048x169) hz,
    View.ld_unit_zero (S := S2048x1) hz, View.ld_unit_zero (S := S169x169) hz, View.ld_unit_zero (S := S1x169) hz,
    View.ld_unit_zero (S := S1x1) hz, View.readCov_unit_zero (S := S1x1) _ hz]

end Cert.PlateBalance.Pieces

end
-- ==== Proof.Carried.lean ====
/-
  The value the kernel carries from grid point to grid point.

  After point `n` it is the sum over the first `n + 1` tiles: the first point resets it to zero and adds tile 0, every
  later point adds its own tile to what the point before left. This is an induction on the point, not an enumeration
  of the 64 points.
-/
import proofs.«107959_j8881992368533_1_alg».proof.Proof.Gen.KernelIdeal.Frame
import proofs.«107959_j8881992368533_1_alg».proof.Proof.Blocks
import proofs.«107959_j8881992368533_1_alg».proof.Proof.Pieces
import Idealize.ShloMosaic.Lib.Pipeline.Value

set_option maxRecDepth 16384

noncomputable section

namespace Cert.PlateBalance.Kernel

open Idealize.ShloMosaic Idealize.ShloMosaic.TcCoe Idealize.ShloMosaic.ValueIdx Idealize.SL.Sem
open Idealize.ShloMosaic.Pipeline (Dat)
open Cert.KernelIdeal Cert.KernelIdeal.Gen Cert.PlateBalance Cert.PlateBalance.Blocks

variable (m : (ℓ : Loc nD τ sig) → Buf (Elt Ideal) ℓ) (ρ : Dev nD → PrngReg)

/-- The sum over the first `n` tiles of core `c`'s arguments. -/
abbrev running (c : Dev nD) (n : ℕ) : EReal := afterTiles (temps m c) (heats m c) (ifaces m c) (envs m c) (conds m c) (emis m c) n

/-- A point adds its tile to the carried value it finds. -/
theorem point_adds (c : Dev nD) (t : Fin cfg0.N) (xs : FVec Ideal S1x1 .f32) (a : EReal) (hxs : ∀ j, xs j = a) :
    k0_pay1 (F := Ideal) (k0_pay3 (F := Ideal) (iblk m c 0 t) (iblk m c 1 t) (iblk m c 2 t) (iblk m c 4 t)
        (iblk m c 3 t) (iblk m c 5 t) xs)
      = fun _ => a + ∑ r : Fin 2048, sampleSum (temps m c) (heats m c) (ifaces m c) (envs m c) (conds m c) (emis m c) (2048 * t.val + r.val) := by
  funext j
  refine (Tile.carried_apply (iblk m c 0 t) (iblk m c 1 t) (iblk m c 2 t) (iblk m c 3 t) (iblk m c 4 t) (iblk m c 5 t) xs j).trans ?_
  rw [hxs j]
  exact congrArg (a + ·) (tile_sum m c t)

/-- After point `n` the carried value is the sum over the first `n + 1` tiles. -/
theorem carried_eq (c : Dev nD) : ∀ (n : ℕ) (h : n < cfg0.N), (outsAt0 m c n h).2 = fun _ => running m c (n + 1)
  | 0, h => by
    rw [outsAt0_A m c ⟨0, h⟩ rfl (by dsimp only; decide)]
    dsimp only
    refine (Pieces.carried_first (F := Ideal) c _ (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) scM0_0 (Memref.isWhole_whole _) _ _ (iblk m c 0 ⟨0, h⟩) (iblk m c 1 ⟨0, h⟩) (iblk m c 2 ⟨0, h⟩) (iblk m c 3 ⟨0, h⟩) (iblk m c 4 ⟨0, h⟩) (iblk m c 5 ⟨0, h⟩)).trans ?_
    refine (point_adds m c ⟨0, h⟩ _ 0 Tile.reset_apply).trans ?_
    funext _
    show (0 : EReal) + _ = afterTiles (temps m c) (heats m c) (ifaces m c) (envs m c) (conds m c) (emis m c) (0 + 1)
    rw [afterTiles_succ, afterTiles_zero]
  | n + 1, h => by
    have hN : cfg0.N = 64 := N_0
    have ih : ∀ j, (outsAt0 m c (n + 1 - 1) (by omega)).2 j = running m c (n + 1) :=
      fun j => congrFun (carried_eq c n (Nat.lt_of_succ_lt h)) j
    have h0 : ¬(⟨n + 1, h⟩ : Fin cfg0.N).val % 64 = 0 := by dsimp only; omega
    by_cases h1 : (⟨n + 1, h⟩ : Fin cfg0.N).val % 64 = 63
    · rw [outsAt0_C m c ⟨n + 1, h⟩ h0 h1]
      dsimp only
      refine (Pieces.carried_last (F := Ideal) c _ (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) _).trans ?_
      refine (point_adds m c ⟨n + 1, h⟩ _ (running m c (n + 1)) ih).trans ?_
      funext _
      exact (afterTiles_succ (temps m c) (heats m c) (ifaces m c) (envs m c) (conds m c) (emis m c) (n + 1)).symm
    · rw [outsAt0_B m c ⟨n + 1, h⟩ h0 h1]
      dsimp only
      refine (Pieces.carried_middle (F := Ideal) c _ (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) _).trans ?_
      refine (point_adds m c ⟨n + 1, h⟩ _ (running m c (n + 1)) ih).trans ?_
      funext _
      exact (afterTiles_succ (temps m c) (heats m c) (ifaces m c) (envs m c) (conds m c) (emis m c) (n + 1)).symm

end Cert.PlateBalance.Kernel

end
-- ==== Proof.WriteBack.lean ====
/-
  The kernel's one write-back.

  The last grid point copies the carried value, by then the sum over all 64 tiles and so the whole sum, into the
  one-entry output block. That block is written back once, at that point, and it is the whole output array.
-/
import proofs.«107959_j8881992368533_1_alg».proof.Proof.Gen.KernelIdeal.Frame
import proofs.«107959_j8881992368533_1_alg».proof.Proof.Carried
import Idealize.ShloMosaic.Lib.Pipeline.Value

set_option maxRecDepth 16384

noncomputable section

namespace Cert.PlateBalance.Kernel

open Idealize.ShloMosaic Idealize.ShloMosaic.TcCoe Idealize.ShloMosaic.ValueIdx Idealize.SL.Sem
open Idealize.ShloMosaic.Pipeline (Dat)
open Cert.KernelIdeal Cert.KernelIdeal.Gen Cert.PlateBalance Cert.PlateBalance.Blocks

variable (m : (ℓ : Loc nD τ sig) → Buf (Elt Ideal) ℓ) (ρ : Dev nD → PrngReg)

/-- The output array's one entry: the whole sum. -/
abbrev summed (c : Dev nD) : Buf (Elt Ideal) ((c : Thread nD τ).loc main_v6) := fun _ => total (temps m c) (heats m c) (ifaces m c) (envs m c) (conds m c) (emis m c)

/-- The output window never moves: its block sits at the origin at every point. Decided once over the 64 points. -/
theorem out_index : ∀ t : Fin cfg0.N, win0_6.index t 0 = 0 ∧ win0_6.index t 1 = 0 :=
  (by decide +kernel : ∀ t : Fin grid0.N, _)

/-- The one write-back, at the last point, writes the whole sum. -/
theorem flushed_eq (c : Dev nD) (t : Fin cfg0.N) (hf : (cfg0.win 6).flush t = true) :
    (dats m 0 c).flushed 6 t = ((cfg0.win 6).blk t).view.read (Elt Ideal) (summed m c) := by
  have hN : cfg0.N = 64 := N_0
  have h63 : t.val % 64 = 63 := (flush0_6 t).mp hf
  have ht : t.val = 63 := by have := t.isLt; omega
  have h0 : ¬t.val % 64 = 0 := by omega
  show (cfg0.win 6).cut (grid0.coords t) ((dats m 0 c).after 6 t) = _
  rw [after0_6, outsAt0_C m c t h0 h63]
  dsimp only
  have hprev : ∀ j, (outsAt0 m c (t.val - 1) (Nat.lt_of_le_of_lt (Nat.sub_le _ _) t.isLt)).2 j = running m c t.val :=
    fun j => (congrFun (carried_eq m c (t.val - 1) _) j).trans (congrArg (running m c) (by omega))
  have hout : ∀ (hc0 : ¬cond0_0 (grid0.coords t)) (hc1 : cond0_1 (grid0.coords t)),
      out0_C_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 hc1 (iblk m c 0 t) (iblk m c 1 t) (iblk m c 2 t) (iblk m c 3 t) (iblk m c 4 t) (iblk m c 5 t)
        (outsAt0 m c (t.val - 1) (Nat.lt_of_le_of_lt (Nat.sub_le _ _) t.isLt)).2 = summed m c := fun hc0 hc1 => by
    refine (Pieces.output_last (F := Ideal) c _ (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 hc1 (iblk m c 0 t) (iblk m c 1 t) (iblk m c 2 t) (iblk m c 3 t) (iblk m c 4 t) (iblk m c 5 t) _).trans ?_
    refine (point_adds m c t _ (running m c t.val) hprev).trans ?_
    funext _
    rw [ht]
    exact (afterTiles_succ (temps m c) (heats m c) (ifaces m c) (envs m c) (conds m c) (emis m c) 63).symm.trans (afterTiles_all (temps m c) (heats m c) (ifaces m c) (envs m c) (conds m c) (emis m c))
  rw [hout]
  have hz' : (fun a => win0_6.index t a * main_v6.ty.shape.size a) = fun _ => 0 := funext fun a => by
    match a with
    | ⟨0, _⟩ => show win0_6.index t 0 * _ = 0; rw [(out_index t).1, Nat.zero_mul]
    | ⟨1, _⟩ => show win0_6.index t 1 * _ = 0; rw [(out_index t).2, Nat.zero_mul]
  exact (Memref.read_access_unit_zero (Elt Ideal) main_v6 hz' (fun a => by rw [congrFun hz' a]; simp) (summed m c)).symm

/-- The last point. -/
abbrev tLast : Fin cfg0.N := ⟨63, by rw [show cfg0.N = 64 from N_0]; decide⟩

/-- That block is the whole output array, so the array ends at the whole sum. -/
theorem final_sum (c : Dev nD) : (dats m 0 c).arrAt 6 cfg0.N = summed m c :=
  (dats m 0 c).arrAt_eq_of_cover 6 (summed m c) (flushed_eq m c) fun i =>
    ⟨tLast, (flush0_6 tLast).mpr rfl, by
      show i ∈ ((View.whole main_v6).slice (win0_6.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_6.index tLast 0 * win0_6.size 0 ≤ (i 0 : Nat)
          ∧ (i 0 : Nat) < win0_6.index tLast 0 * win0_6.size 0 + win0_6.xsize (grid0.coords tLast) 0
        rw [(out_index tLast).1, show win0_6.xsize (grid0.coords tLast) 0 = 1 from rfl]
        omega
      | ⟨1, _⟩ =>
        show win0_6.index tLast 1 * win0_6.size 1 ≤ (i 1 : Nat)
          ∧ (i 1 : Nat) < win0_6.index tLast 1 * win0_6.size 1 + win0_6.xsize (grid0.coords tLast) 1
        rw [(out_index tLast).2, show win0_6.xsize (grid0.coords tLast) 1 = 1 from rfl]
        omega⟩

end Cert.PlateBalance.Kernel

end
-- ==== Proof.KernelRun.lean ====
/-
  The kernel's run, with its result named.

  After the region the host reads the output array's one entry and divides it by the number of imbalances: the mean.
  The arguments end as they began.
-/
import proofs.«107959_j8881992368533_1_alg».proof.Proof.Gen.KernelIdeal.Frame
import proofs.«107959_j8881992368533_1_alg».proof.Proof.WriteBack
import Idealize.ShloMosaic.Lib.Pipeline.Value
import Idealize.ShloMosaic.Lib.StableHlo.Run

set_option maxRecDepth 16384

noncomputable section

namespace Cert.PlateBalance.Kernel

open Idealize.ShloMosaic Idealize.ShloMosaic.TcCoe Idealize.ShloMosaic.ValueIdx Idealize.SL.Sem
open Idealize.ShloMosaic.Pipeline (Dat)
open Cert.KernelIdeal Cert.KernelIdeal.Gen Cert.PlateBalance Cert.PlateBalance.Blocks

variable (m : (ℓ : Loc nD τ sig) → Buf (Elt Ideal) ℓ) (ρ : Dev nD → PrngReg)

/-- The result, on every core: the mean of the imbalances. -/
abbrev result (c : Dev nD) : Buf (Elt Ideal) ((c : Thread nD τ).loc main_v8) := fun _ => mean (temps m c) (heats m c) (ifaces m c) (envs m c) (conds m c) (emis m c)

/-- After the region the host reads the output's one entry and divides it by the number of imbalances. -/
theorem tail_eq (c : Dev nD) :
    Pipeline.afterTail₀ cfgs (dats m) 0 (V0 m) [hostOps1] c main_v8 = result m c := by
  unfold Pipeline.afterTail₀
  show StableHlo.after hostOps1 _ (Proc.devRef .tc main_v8) = _
  after_results
  have hw : Pipeline.withArrays (cfgs 0).spec c (V0 m c) (fun w => (dats m 0 c).arrAt w (cfgs 0).N)
      (Proc.devRef .tc main_v6) = summed m c :=
    (Pipeline.withArrays_arr spec0 launch0.win.arr_inj c _ _ 6).trans (final_sum m c)
  rw [hw]
  funext i
  rfl

/-- The kernel's run: every weakly fair execution ends with the result at the mean and the arguments as they were. -/
theorem run : θ_run defs (onTc (τ := τ) (main (F := Ideal))) ⟨m, fun _ => 0, ρ⟩ fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.PlateBalance.Kernel

end
-- ==== Proof.RefValue.lean ====
/-
  The reference computes the specification.

  Its program flattens the three plate arrays, forms every imbalance by the operations of the specification in the
  specification's order, sums all 131072 × 169 of them at once starting from zero, and divides by their number. Read
  one operation at a time at an index, the array of absolute values at `(b, n)` is the imbalance of node `n` in sample
  `b`, the one big sum is the double sum over samples and nodes, and the quotient is the mean.
-/
import proofs.«107959_j8881992368533_1_alg».proof.Proof.Gen.ReferenceIdeal.Read
import proofs.«107959_j8881992368533_1_alg».proof.Proof.Spec
import Idealize.ShloMosaic.Lib.ValueIdx
import Idealize.ShloMosaic.PureOps.Ideal.Laws

noncomputable section

namespace Cert.PlateBalance.Reference

open Idealize.ShloMosaic Idealize.ShloMosaic.ValueIdx
open Cert.ReferenceIdeal Cert.ReferenceIdeal.Gen Cert.ReferenceIdeal.Read Cert.PlateBalance

variable (x0 x1 x2 : (⟨S131072x13x13, .f32⟩ : BufTy).Contents (Elt Ideal)) (x3 : (⟨S131072x1, .f32⟩ : BufTy).Contents (Elt Ideal))
  (x4 : (⟨S169x169, .f32⟩ : BufTy).Contents (Elt Ideal)) (x5 : (⟨S169, .f32⟩ : BufTy).Contents (Elt Ideal))

/-- The array of absolute values, at sample `b` and node `n`, is that node's imbalance over the flattened arrays. -/
theorem abs_at (b : Fin 131072) (n : Fin 169) :
    val_main_v18 (F := Ideal) x0 x1 x2 x3 x4 x5 (ix2 b n)
      = nodeImbalance (val_main_v0 (F := Ideal) x0) (val_main_v1 (F := Ideal) x1) (val_main_v2 (F := Ideal) x2) x3 x4 x5 b n := by
  have e1 : ∀ k, lidx_main_v4 (ix2 b n) k = ix2 b k := fun k => funext fun a => Fin.ext (by
    match a with
    | ⟨0, _⟩ => rfl
    | ⟨1, _⟩ => rfl)
  have e2 : ∀ k, ridx_main_v4 (ix2 b n) k = ix2 n k := fun k => funext fun a => Fin.ext (by
    match a with
    | ⟨0, _⟩ => rfl
    | ⟨1, _⟩ => rfl)
  have e3 : idx_main_v12 (ix2 b n) = ix2 b (0 : Fin 1) := funext fun a => Fin.ext (by
    match a with
    | ⟨0, _⟩ => rfl
    | ⟨1, _⟩ => rfl)
  have e4 : idx_main_v14 (ix2 b n) = ix2 (0 : Fin 1) n := funext fun a => Fin.ext (by
    match a with
    | ⟨0, _⟩ => rfl
    | ⟨1, _⟩ => rfl)
  have e5 : idx_main_v5 (ix2 (0 : Fin 1) n) = ix1 n := funext fun a => Fin.ext (by
    match a with
    | ⟨0, _⟩ => rfl)
  rw [val_main_v18_apply, val_main_v17_apply, val_main_v16_apply, val_main_v4_apply, val_main_v15_apply,
    val_main_v14_apply, val_main_v13_apply, val_main_v9_apply, val_main_v8_apply, val_main_v12_apply,
    val_main_v11_apply, val_main_v10_apply, val_main_v3_apply, e4, val_main_v7_apply, val_main_v6_apply,
    val_main_cst_apply, val_main_v5_apply, e5, e3]
  simp only [e1, e2]
  rfl

/-- The program's result is the mean of the imbalances over the flattened arrays. -/
theorem result_eq :
    val_main_v20 (F := Ideal) x0 x1 x2 x3 x4 x5
      = fun _ => mean (val_main_v0 (F := Ideal) x0) (val_main_v1 (F := Ideal) x1) (val_main_v2 (F := Ideal) x2) x3 x4 x5 := by
  funext i
  rw [val_main_v20_apply, val_main_v19_apply, val_main_cst_0_apply, val_main_cst_1_apply, sum_idx2]
  simp only [abs_at]
  unfold mean
  rw [total_eq_sum, Ideal.ofBits_def, Ideal.ofBits_def, Ideal.ofBits_zero_f32, zero_add]
  rfl

end Cert.PlateBalance.Reference

end
-- ==== Proof.lean ====
/-
  The mean absolute heat imbalance of a 13 × 13 plate over a batch of temperature fields: a tiled kernel against a
  whole-array reference.

  Both programs form, for each of 131072 samples and 169 nodes, the absolute value of conduction plus radiation minus
  the applied load, by the same operations in the same order with the same constants; on the extended reals a change
  of float format does nothing, and the kernel's matrix product into a zero accumulator and the reference's
  contraction are the same plain sum. They differ only in how the 131072 × 169 imbalances are added up. The reference
  adds them all at once. The kernel walks the batch in 64 tiles of 2048 samples, adds each tile's imbalances sample
  by sample, and accumulates the tiles one after another from zero; after the last tile it hands the total to the
  host, which divides by the number of imbalances, as the reference does. Addition of extended reals is commutative
  and associative, so both totals are the same sum; nothing needs the inputs to be finite.

  The specification and the regrouping of the sum are in Proof/Spec.lean; one tile's arithmetic in Proof/Tile.lean;
  what each control case of the kernel leaves behind in Proof/Pieces.lean; the blocks a grid point sees in
  Proof/Blocks.lean; the induction over the grid points in Proof/Carried.lean, the write-back in
  Proof/WriteBack.lean and the final division in Proof/KernelRun.lean; the reference in Proof/RefValue.lean. Here the claims are assembled.
-/
import proofs.«107959_j8881992368533_1_alg».proof.Defs
import proofs.«107959_j8881992368533_1_alg».proof.Proof.Gen.Kernel
import proofs.«107959_j8881992368533_1_alg».proof.Proof.Gen.Kernel.Skeleton
import proofs.«107959_j8881992368533_1_alg».proof.Proof.Gen.Kernel.Launch
import proofs.«107959_j8881992368533_1_alg».proof.Proof.Gen.Kernel.Points
import proofs.«107959_j8881992368533_1_alg».proof.Proof.Gen.Kernel.Frame
import proofs.«107959_j8881992368533_1_alg».proof.Proof.Gen.KernelIdeal
import proofs.«107959_j8881992368533_1_alg».proof.Proof.Gen.KernelIdeal.Skeleton
import proofs.«107959_j8881992368533_1_alg».proof.Proof.Gen.KernelIdeal.Launch
import proofs.«107959_j8881992368533_1_alg».proof.Proof.Gen.KernelIdeal.Points
import proofs.«107959_j8881992368533_1_alg».proof.Proof.Gen.KernelIdeal.Frame
import proofs.«107959_j8881992368533_1_alg».proof.Proof.Gen.ReferenceIdeal
import proofs.«107959_j8881992368533_1_alg».proof.Proof.Gen.ReferenceIdeal.Run
import proofs.«107959_j8881992368533_1_alg».proof.Proof.Gen.ReferenceIdeal.Read
import proofs.«107959_j8881992368533_1_alg».proof.Proof.Gen.Pre_finite_inputs
import proofs.«107959_j8881992368533_1_alg».proof.Proof.KernelRun
import proofs.«107959_j8881992368533_1_alg».proof.Proof.RefValue
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end at the mean of the imbalances of the same arrays. -/
theorem algebraic : Cert.algebraic_KernelIdeal_ReferenceIdeal := by
  intro m ρ m' ρ' _ hagree
  refine ⟨fun c _ => Cert.PlateBalance.mean (Cert.PlateBalance.Blocks.temps m c) (Cert.PlateBalance.Blocks.heats m c)
      (Cert.PlateBalance.Blocks.ifaces m c) (Cert.PlateBalance.Blocks.envs m c) (Cert.PlateBalance.Blocks.conds m c)
      (Cert.PlateBalance.Blocks.emis m c), Cert.PlateBalance.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.PlateBalance.Reference.result_eq, (hagree c).1, (hagree c).2.1,
    (hagree c).2.2.1, (hagree c).2.2.2.1, (hagree c).2.2.2.2.1, (hagree c).2.2.2.2.2]
  rfl

theorem claim : Cert.Claim := ⟨Cert.Kernel.Gen.facts, Cert.KernelIdeal.Gen.facts, Cert.ReferenceIdeal.Gen.facts,
  Cert.Pre_finite_inputs.Gen.facts, frame_kernel, frame_kernel_ideal, frame_reference, trivial, algebraic⟩

end Cert.Proof

end
